-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S4096 : S_.BroadcastsInDim S4096 (![] : Fin 0 → Fin S4096.rank)
  reducesTo_S4096_S_d0 : S4096.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S1024x4096 .f32) (main_arg1 : FVec F S2048x8 .f32) (main_arg2 : FVec F S4096 .f32) (main_arg3 : IVec S2097152 32) (main_arg4 : FVec F S2048 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S2048x8 .f32 := Host.absf main_arg1
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S512x8x4096 : Shape := ⟨3, ![512, 8, 4096]⟩
abbrev S4096x4096 : Shape := ⟨2, ![4096, 4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S2048x8, .f32⟩
  | .hbm, ⟨2, _⟩ => ⟨S4096, .f32⟩
  | .hbm, ⟨3, _⟩ => ⟨S2097152, .i32⟩
  | .hbm, ⟨4, _⟩ => ⟨S2048, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S512x4096x8, .f32⟩
  | .hbm, ⟨15, _⟩ => ⟨S512x8x4096, .f32⟩
  | .hbm, ⟨16, _⟩ => ⟨S4096x4096, .f32⟩
  | .hbm, ⟨17, _⟩ => ⟨S1024x4096, .bf16⟩
  | .hbm, ⟨18, _⟩ => ⟨S4096x4096, .bf16⟩
  | .hbm, ⟨19, _⟩ => ⟨S1x4096, .f32⟩
  | .hbm, ⟨20, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S512x8x4096_0_2_1 : S512x4096x8.Transposes [0, 2, 1] S512x8x4096
  shapeCasts_S512x8x4096_S4096x4096 : S512x8x4096.ShapeCasts S4096x4096
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  gather_S2048x8_S2097152x1_S2097152x8_1_0_n_n_0_1_18_wf : GatherDims.WF S2048x8 S2097152x1 S2097152x8 [1] [0] [] [0] [] 1 ![1, 8]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .bf16 = 32 ∨ (Rect.block (s := S1024x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .f32 = 32 ∨ (Rect.block (s := S1024x4096) S512x1024.size (cc0_transform_3 i) (hinb0_3 i)).WholeWords (EltTy.packing .f32)

variable [Facts₀]

def gather_S2048x8_S2097152x1_S2097152x8_1_0_n_n_0_1_18 : GatherDims S2048x8 S2097152x1 S2097152x8 where
  offsetDims := [1]
  collapsedSliceDims := [0]
  operandBatchingDims := []
  startIndicesBatchingDims := []
  startIndexMap := [0]
  indexVectorDim := 1
  sliceSizes := ![1, 8]
  wf := gather_S2048x8_S2097152x1_S2097152x8_1_0_n_n_0_1_18_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S4096x512x8 : Shape := ⟨3, ![4096, 512, 8]⟩
abbrev S4096x4096 : Shape := ⟨2, ![4096, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x8, .f32⟩
  | .hbm, ⟨2, _⟩ => ⟨S4096, .f32⟩
  | .hbm, ⟨3, _⟩ => ⟨S2097152, .i32⟩
  | .hbm, ⟨4, _⟩ => ⟨S2048, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S512x4096x8, .f32⟩
  | .hbm, ⟨15, _⟩ => ⟨S4096x512x8, .f32⟩
  | .hbm, ⟨16, _⟩ => ⟨S4096x4096, .f32⟩
  | .hbm, ⟨17, _⟩ => ⟨S4096x4096, .f32⟩
  | .hbm, ⟨18, _⟩ => ⟨S1024x4096, .f32⟩
  | .hbm, ⟨19, _⟩ => ⟨S1x4096, .f32⟩
  | .hbm, ⟨20, _⟩ => ⟨S1024x4096, .f32⟩
  | .hbm, ⟨21, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S4096x512x8_1_0_2 : S512x4096x8.Transposes [1, 0, 2] S4096x512x8
  shapeCasts_S4096x512x8_S4096x4096 : S4096x512x8.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  gather_S2048x8_S2097152x1_S2097152x8_1_0_n_n_0_1_18_wf : GatherDims.WF S2048x8 S2097152x1 S2097152x8 [1] [0] [] [0] [] 1 ![1, 8]
  dot_S1024x4096_S4096x4096_S1024x4096_1_0_0_1_n_n_wf : DotDims.WF S1024x4096 S4096x4096 S1024x4096 [1] [0] [0] [1] [] []

variable [Facts₀]

def gather_S2048x8_S2097152x1_S2097152x8_1_0_n_n_0_1_18 : GatherDims S2048x8 S2097152x1 S2097152x8 where
  offsetDims := [1]
  collapsedSliceDims := [0]
  operandBatchingDims := []
  startIndicesBatchingDims := []
  startIndexMap := [0]
  indexVectorDim := 1
  sliceSizes := ![1, 8]
  wf := gather_S2048x8_S2097152x1_S2097152x8_1_0_n_n_0_1_18_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.KernelPieces.lean ====
/-
  What each control case of the accumulating body leaves behind, as the body's own arithmetic.

  The body runs in three cases of its two conditions on the contraction coordinate. At the first step it clears the
  accumulator and then adds the step's block product to it; at a middle step it adds the product to what the step
  before left; at the last step it does the same and then stores the accumulator plus the bias row as the output block.
  Each case's run leaves whole-buffer stores, so what a buffer holds afterwards is the payload of the last store into
  it, with every load read back as the value it loaded: an input block, what the step before left, or — for a load
  that follows a store in the same run — that store's payload.
-/
import proofs.«163382_j16123307229809_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of a load or store of a whole buffer. -/
theorem off_zero : (![0, 0] : Fin 2 → ℕ) = fun _ => 0 := by funext a; fin_cases a <;> rfl

variable (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .bf16) (x2 : Vec F S1x1024 .f32) (xs0 : Vec F S512x1024 .f32)

/-- First step: the accumulator ends at the block product added to the cleared accumulator. -/
theorem scratch_first (hc0 : cond0_0 i) (hc1 : ¬cond0_1 i) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) off_zero]
  simp only [View.readAt_eq_ld, harg3.read_unread, harg4.read_unread, View.ld_unit_zero (S := S512x1024) off_zero,
    View.ld_unit_zero (S := S1024x1024) off_zero, View.readCov_unit_zero (S := S512x1024) _ off_zero]

/-- Middle step: the accumulator ends at the block product added to what the step before left. -/
theorem scratch_middle (hc0 : ¬cond0_0 i) (hc1 : ¬cond0_1 i) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x1024) off_zero]
  simp only [View.readAt_eq_ld, harg3.read_unread, harg4.read_unread, harg7.read_unread, View.ld_unit_zero (S := S512x1024) off_zero,
    View.ld_unit_zero (S := S1024x1024) off_zero]

/-- Last step: the accumulator, likewise. -/
theorem scratch_last (hc0 : ¬cond0_0 i) (hc1 : cond0_1 i) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x1024) off_zero]
  simp only [View.readAt_eq_ld, harg3.read_unread, harg4.read_unread, harg7.read_unread, View.ld_unit_zero (S := S512x1024) off_zero,
    View.ld_unit_zero (S := S1024x1024) off_zero]

/-- Last step: the output block is the finished accumulator plus the bias row. -/
theorem output_last (hc0 : ¬cond0_0 i) (hc1 : cond0_1 i) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S512x1024) off_zero]
  simp only [View.readAt_eq_ld, harg3.read_unread, harg4.read_unread, harg5.read_unread, harg7.read_unread,
    View.ld_unit_zero (S := S512x1024) off_zero, View.ld_unit_zero (S := S1024x1024) off_zero, View.ld_unit_zero (S := S1x1024) off_zero,
    View.readCov_unit_zero (S := S512x1024) _ off_zero]

end Cert.KernelIdeal.Pieces

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPayload.lean ====
/-
  The body's three stored values at an index, over the extended reals.

  The cleared accumulator is zero everywhere. One accumulation step leaves, at (p, q), what was there plus the (p, q)
  entry of the step's 512 × 1024 by 1024 × 1024 block product: the sum over k of the left block at (p, k) times the
  right block at (k, q). The finishing store adds the bias row's entry at column q to the accumulator at (p, q),
  whatever the row p.
-/
import proofs.«163382_j16123307229809_1_alg».proof.Proof.Gen.KernelIdeal.Skeleton
import proofs.«163382_j16123307229809_1_alg».proof.Proof.LibMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator holds zero at every index. -/
theorem cleared_apply (j : S512x1024.Idx) : k0_pay1 (F := Ideal) j = 0 := by
  unfold k0_pay1
  rw [shapeCast_self]
  exact Ideal.ofBits_zero_f32

/-- One accumulation step at (p, q): what the accumulator held there plus the block product's entry. -/
theorem step_apply (a : Vec Ideal S512x1024 .bf16) (b : Vec Ideal S1024x1024 .bf16) (acc : Vec Ideal S512x1024 .f32)
    (p : Fin 512) (q : Fin 1024) :
    k0_pay2 a b acc (ix2 p q) = acc (ix2 p q) + ∑ k : Fin 1024, a (ix2 p k) * b (ix2 k q) := by
  unfold k0_pay2
  simp only [shapeCast_self]
  exact congrArg (acc (ix2 p q) + ·) (Cert.Matmul.matmul_plain_apply none a b p q)

/-- The finishing store at (p, q): the accumulator there plus the bias row at column q. -/
theorem finish_apply (s : Vec Ideal S512x1024 .f32) (r : Vec Ideal S1x1024 .f32) (p : Fin 512) (q : Fin 1024) :
    k0_pay3 s r (ix2 p q) = s (ix2 p q) + r (ix2 0 q) := by
  unfold k0_pay3
  simp only [shapeCast_self]
  exact congrArg (s (ix2 p q) + ·) (broadcastTo_apply r broadcasts_S1x1024_S512x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)]))

end Cert.KernelIdeal.Payload

end
-- ==== Proof.Linear.lean ====
/-
  The linear layer read as one function of its arrays, and the regrouping of its contraction sum.

  A row table `T` of shape [2097152, 8] — row `n * 4096 + o` holds the 8 weights that input block `n` contributes to
  output feature `o` — spells a 4096 × 4096 matrix whose entry at (k, o) is `T (k / 8 * 4096 + o, k % 8)`. The layer's
  result at (i, o) is the sum over k of `x (i, k)` times that entry, plus the bias at o.

  A sum over `a * b` consecutive terms is the sum of its `a` consecutive runs of `b` terms. That is a statement about
  a commutative monoid, so it holds of the extended reals as they are: no term needs to be finite.
-/
import Idealize.ShloMosaic.PureOps.Ideal.Laws
import Idealize.ShloMosaic.Lib.ValueIdx

noncomputable section

namespace Cert.Linear

open Idealize.ShloMosaic Idealize.ShloMosaic.ValueIdx

/-! ## A sum regrouped into consecutive runs -/

/-- A function on `Fin n` continued by zero to every natural number. -/
def ext0 {β : Type*} [Zero β] {n : ℕ} (f : Fin n → β) : ℕ → β := fun k => if h : k < n then f ⟨k, h⟩ else 0

/-- Below `n` the continuation is the function. -/
theorem ext0_of_lt {β : Type*} [Zero β] {n : ℕ} (f : Fin n → β) (k : ℕ) (h : k < n) : ext0 f k = f ⟨k, h⟩ := dif_pos h

/-- A sum over `a * b` consecutive naturals is the sum of its `a` runs of `b`: run `s` is `b * s, …, b * s + b - 1`. -/
theorem sum_range_mul_runs {β : Type*} [AddCommMonoid β] (a b : ℕ) (g : ℕ → β) :
    ∑ k ∈ Finset.range (a * b), g k = ∑ s ∈ Finset.range a, ∑ j ∈ Finset.range b, g (b * s + j) := by
  induction a with
  | zero => simp
  | succ a ih => rw [Nat.succ_mul, Finset.sum_range_add, ih, Finset.sum_range_succ, Nat.mul_comm a b]

/-- The same for a sum over `Fin (a * b)`, the summand continued by zero. -/
theorem sum_fin_runs {β : Type*} [AddCommMonoid β] (a b : ℕ) (f : Fin (a * b) → β) :
    ∑ k, f k = ∑ s ∈ Finset.range a, ∑ j ∈ Finset.range b, ext0 f (b * s + j) := by
  rw [← sum_range_mul_runs, Finset.sum_range]
  exact Finset.sum_congr rfl fun k _ => (ext0_of_lt f k.val k.isLt).symm

/-! ## The layer -/

/-- The matrix a row table spells: its entry at (k, o) is the table's row `k / 8 * 4096 + o` at column `k % 8`. -/
def weight (T : FVec Ideal ⟨2, ![2097152, 8]⟩ .f32) : FVec Ideal ⟨2, ![4096, 4096]⟩ .f32 := fun j =>
  T (ix2 ⟨(j 0).val / 8 * 4096 + (j 1).val, by have h0 := idx2_lt0 j; have h1 := idx2_lt1 j; omega⟩
    ⟨(j 0).val % 8, Nat.mod_lt _ (by decide)⟩)

/-- The matrix at (k, o). -/
theorem weight_apply (T : FVec Ideal ⟨2, ![2097152, 8]⟩ .f32) (k o : Fin 4096) :
    weight T (ix2 k o) = T (ix2 ⟨k.val / 8 * 4096 + o.val, by have := k.isLt; have := o.isLt; omega⟩ ⟨k.val % 8, Nat.mod_lt _ (by decide)⟩) := rfl

/-- `x · W + b`: at (i, o) the sum over k of `x (i, k) * W (k, o)`, plus `b o`. -/
def linear (x : FVec Ideal ⟨2, ![1024, 4096]⟩ .f32) (W : FVec Ideal ⟨2, ![4096, 4096]⟩ .f32) (b : FVec Ideal ⟨1, ![4096]⟩ .f32) :
    FVec Ideal ⟨2, ![1024, 4096]⟩ .f32 := fun i =>
  (∑ k : Fin 4096, x (ix2 (i 0) k) * W (ix2 k (i 1))) + b (ix1 (i 1))

/-- The layer at (p, q). -/
theorem linear_apply (x : FVec Ideal ⟨2, ![1024, 4096]⟩ .f32) (W : FVec Ideal ⟨2, ![4096, 4096]⟩ .f32) (b : FVec Ideal ⟨1, ![4096]⟩ .f32)
    (p : Fin 1024) (q : Fin 4096) :
    linear x W b (ix2 p q) = (∑ k : Fin 4096, x (ix2 p k) * W (ix2 k q)) + b (ix1 q) := rfl

/-- The contraction sum of the layer, regrouped into four runs of 1024 and started from zero: the order in which a
    blockwise accumulation meets its terms. -/
theorem contraction_runs (f : Fin 4096 → EReal) :
    (0 : EReal) + ∑ s ∈ Finset.range 4, ∑ j ∈ Finset.range 1024, ext0 f (1024 * s + j) = ∑ k, f k := by
  rw [zero_add]
  exact (sum_fin_runs 4 1024 f).symm

end Cert.Linear

end
-- ==== Proof.KernelValue.lean ====
/-
  The accumulating kernel's result array, as one function of the arrays the region is handed.

  The grid has 32 points, numbered i * 16 + j * 4 + s for the output's row tile i < 2, its column tile j < 4 and the
  contraction step s < 4. At point t the left window holds rows 512 i … of columns 1024 s … of the left array, the right
  window rows 1024 s … of columns 1024 j … of the right array, the bias window columns 1024 j … of the bias row, and the
  output window is tile (i, j). Each run of four consecutive points t - 3, …, t with t ≡ 3 (mod 4) clears the
  accumulator, adds the four steps' block products in turn, and at t writes the accumulator plus the bias row back as
  tile (i, j). At (p, q) of the tile the four block products are the four runs of 1024 terms of the contraction sum
  for row 512 i + p and column 1024 j + q, met in order and started from zero: the whole sum, by regrouping alone.
  The eight written tiles cover the array.
-/
import proofs.«163382_j16123307229809_1_alg».proof.Proof.Gen.KernelIdeal.Value
import proofs.«163382_j16123307229809_1_alg».proof.Proof.KernelPieces
import proofs.«163382_j16123307229809_1_alg».proof.Proof.KernelPayload
import proofs.«163382_j16123307229809_1_alg».proof.Proof.Linear
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and their blocks, at their literal shapes -/

/-- The left array, the right array and the bias row as the region finds them. -/
abbrev xArr (c : Dev nD) : Vec Ideal S1024x4096 .bf16 := V m c main_v10
abbrev wArr (c : Dev nD) : Vec Ideal S4096x4096 .bf16 := V m c main_v11
abbrev rArr (c : Dev nD) : Vec Ideal S1x4096 .f32 := V m c main_v12
/-- Their blocks at a point. -/
abbrev xBlk (c : Dev nD) (t : Fin cfg0.N) : Vec Ideal S512x1024 .bf16 := iblk m c 0 t
abbrev wBlk (c : Dev nD) (t : Fin cfg0.N) : Vec Ideal S1024x1024 .bf16 := iblk m c 1 t
abbrev rBlk (c : Dev nD) (t : Fin cfg0.N) : Vec Ideal S1x1024 .f32 := iblk m c 2 t

/-- The grid has 32 points. -/
theorem lt32 (t : Fin cfg0.N) : t.val < 32 := lt_of_lt_of_eq t.isLt (show cfg0.N = 32 from N_0)

/-- Which block each window is on at point t = i * 16 + j * 4 + s. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left block at (p, k) is the left array at row 512 i + p, column 1024 s + k. -/
theorem xBlk_apply (c : Dev nD) (t : Fin cfg0.N) (p : Fin 512) (k : Fin 1024) (r : Fin 1024) (kk : Fin 4096)
    (hr : r.val = 512 * (t.val / 16) + p.val) (hk : kk.val = 1024 * (t.val % 4) + k.val) :
    xBlk m c t (ix2 p k) = xArr m c (ix2 r kk) := by
  obtain ⟨e0, e1, -⟩ := idx_facts t
  show V m c main_v10 (((cfg0.win 0).blk t).view.emb (ix2 p k)) = V m c main_v10 (ix2 r kk)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = kk.val; omega

/-- The right block at (k, q) is the right array at row 1024 s + k, column 1024 j + q. -/
theorem wBlk_apply (c : Dev nD) (t : Fin cfg0.N) (k : Fin 1024) (q : Fin 1024) (kk : Fin 4096) (o : Fin 4096)
    (hk : kk.val = 1024 * (t.val % 4) + k.val) (ho : o.val = 1024 * (t.val / 4 % 4) + q.val) :
    wBlk m c t (ix2 k q) = wArr m c (ix2 kk o) := by
  obtain ⟨-, -, e2, e3, -⟩ := idx_facts t
  show V m c main_v11 (((cfg0.win 1).blk t).view.emb (ix2 k q)) = V m c main_v11 (ix2 kk o)
  refine congrArg _ (funext fun a => Fin.ext ?_)
  match a with
  | ⟨0, _⟩ => show win0_1.index t (0 : Fin 2) * 1024 + 1 * k.val = kk.val; omega
  | ⟨1, _⟩ => show win0_1.index t (1 : Fin 2) * 1024 + 1 * q.val = o.val; omega

/-- The bias block at (0, q) is the bias row at column 1024 j + q. -/
theorem rBlk_apply (c : Dev nD) (t : Fin cfg0.N) (q : Fin 1024) (o : Fin 4096)
    (ho : o.val = 1024 * (t.val / 4 % 4) + q.val) :
    rBlk m c t (ix2 0 q) = rArr m c (ix2 0 o) := by
  obtain ⟨-, -, -, -, e4, e5, -⟩ := idx_facts t
  show V m c main_v12 (((cfg0.win 2).blk t).view.emb (ix2 0 q)) = V m c main_v12 (ix2 0 o)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-! ## One step's addend, and the accumulator's steps -/

/-- What point n adds to the accumulator: its block product, entry by entry (zero past the grid, where nothing reads it). -/
def addend (c : Dev nD) (n : ℕ) : S512x1024.Idx → EReal := fun j =>
  if h : n < cfg0.N then ∑ k : Fin 1024, xBlk m c ⟨n, h⟩ (ix2 (j 0) k) * wBlk m c ⟨n, h⟩ (ix2 k (j 1)) else 0

theorem addend_apply (c : Dev nD) (n : ℕ) (h : n < cfg0.N) (p : Fin 512) (q : Fin 1024) :
    addend m c n (ix2 p q) = ∑ k : Fin 1024, xBlk m c ⟨n, h⟩ (ix2 p k) * wBlk m c ⟨n, h⟩ (ix2 k q) := by
  unfold addend
  exact dif_pos h

/-- At the first point of a run the accumulator is cleared and the point's addend added: what was there does not enter. -/
theorem step_reset (c : Dev nD) (n : ℕ) (h : n < cfg0.N) (h0 : n % 4 = 0) (acc : Vec Ideal S512x1024 .f32) (j : S512x1024.Idx) :
    Value.scAt0_0 m c n h acc j = (0 : EReal) + addend m c n j := by
  have h1 : ¬n % 4 = 3 := by omega
  obtain ⟨p, q, rfl⟩ : ∃ (p : Fin 512) (q : Fin 1024), j = ix2 p q := ⟨j 0, j 1, eq_ix2 j⟩
  unfold Value.scAt0_0
  rw [dif_pos h0, dif_neg h1]
  refine (congrFun (Pieces.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (xBlk m c (⟨n, h⟩ : Fin cfg0.N)) (wBlk m c (⟨n, h⟩ : Fin cfg0.N)) (rBlk m c (⟨n, h⟩ : Fin cfg0.N)) ((hcond0_0 (⟨n, h⟩ : Fin cfg0.N)).mpr h0) (fun hh => h1 ((hcond0_1 (⟨n, h⟩ : Fin cfg0.N)).mp hh))) (ix2 p q)).trans ?_
  refine (Payload.step_apply (xBlk m c ⟨n, h⟩) (wBlk m c ⟨n, h⟩) (k0_pay1 (F := Ideal)) p q).trans ?_
  rw [Payload.cleared_apply, addend_apply m c n h]

/-- At every other point the point's addend is added to what the point before left. -/
theorem step_add (c : Dev nD) (n : ℕ) (h : n < cfg0.N) (h0 : ¬n % 4 = 0) (acc : Vec Ideal S512x1024 .f32) (j : S512x1024.Idx) :
    Value.scAt0_0 m c n h acc j = acc j + addend m c n j := by
  obtain ⟨p, q, rfl⟩ : ∃ (p : Fin 512) (q : Fin 1024), j = ix2 p q := ⟨j 0, j 1, eq_ix2 j⟩
  unfold Value.scAt0_0
  rw [dif_neg h0]
  by_cases h1 : n % 4 = 3
  · rw [dif_pos h1]
    refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (xBlk m c (⟨n, h⟩ : Fin cfg0.N)) (wBlk m c (⟨n, h⟩ : Fin cfg0.N)) (rBlk m c (⟨n, h⟩ : Fin cfg0.N)) acc (fun hh => h0 ((hcond0_0 (⟨n, h⟩ : Fin cfg0.N)).mp hh)) ((hcond0_1 (⟨n, h⟩ : Fin cfg0.N)).mpr h1)) (ix2 p q)).trans ?_
    refine (Payload.step_apply (xBlk m c ⟨n, h⟩) (wBlk m c ⟨n, h⟩) acc p q).trans ?_
    rw [addend_apply m c n h]
  · rw [dif_neg h1]
    refine (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (xBlk m c (⟨n, h⟩ : Fin cfg0.N)) (wBlk m c (⟨n, h⟩ : Fin cfg0.N)) (rBlk m c (⟨n, h⟩ : Fin cfg0.N)) acc (fun hh => h0 ((hcond0_0 (⟨n, h⟩ : Fin cfg0.N)).mp hh)) (fun hh => h1 ((hcond0_1 (⟨n, h⟩ : Fin cfg0.N)).mp hh))) (ix2 p q)).trans ?_
    refine (Payload.step_apply (xBlk m c ⟨n, h⟩) (wBlk m c ⟨n, h⟩) acc p q).trans ?_
    rw [addend_apply m c n h]

/-- After the last point t of a run the accumulator holds zero plus the run's four addends. -/
theorem scratch_done (c : Dev nD) (t : Fin cfg0.N) (h1 : t.val % 4 = 3) (j : S512x1024.Idx) :
    (outsAt0 m c t.val t.isLt).2 j = (0 : EReal) + ∑ s ∈ Finset.range 4, addend m c (4 * (t.val / 4) + s) j := by
  have ht := lt32 t
  have e : t.val % 4 + 1 = 4 := by omega
  refine (congrFun (Value.soutsAt0_0_eq m c t) j).trans ?_
  refine (Pipeline.accAt_add_apply (β := EReal) (fun n h => Value.scAt0_0 m c n h (VS0_0.read (Elt Ideal) VS0_0.junk)) (Value.scAt0_0 m c)
    (fun _ => (0 : EReal)) (addend m c) (4 * (t.val / 4)) 3
    (fun h i => step_reset m c (4 * (t.val / 4)) h (by omega) _ i)
    (fun n h acc i hlt hle => step_add m c n h (by omega) acc i)
    (t.val % 4) (by omega) _ j).trans ?_
  rw [e]

/-! ## The result array -/

/-- The layer of the three arrays the region is handed. -/
abbrev result (c : Dev nD) : Buf (Elt Ideal) ((c : Thread nD τ).loc main_v13) :=
  Cert.Linear.linear (xArr m c) (wArr m c) (fun j => rArr m c (ix2 0 (j 0)))

/-- Step s of the run ending at t adds, at (p, q) of tile (i, j), the s-th run of 1024 terms of the contraction sum for
    row 512 i + p and column 1024 j + q. -/
theorem addend_run (c : Dev nD) (t : Fin cfg0.N) (h1 : t.val % 4 = 3) (s : ℕ) (hs : s < 4) (p : Fin 512) (q : Fin 1024)
    (r : Fin 1024) (o : Fin 4096) (hr : r.val = 512 * (t.val / 16) + p.val) (ho : o.val = 1024 * (t.val / 4 % 4) + q.val) :
    addend m c (4 * (t.val / 4) + s) (ix2 p q)
      = ∑ k ∈ Finset.range 1024, Cert.Linear.ext0 (fun kk : Fin 4096 => xArr m c (ix2 r kk) * wArr m c (ix2 kk o)) (1024 * s + k) := by
  have ht := lt32 t
  have hn : 4 * (t.val / 4) + s < cfg0.N := lt_of_lt_of_eq (show 4 * (t.val / 4) + s < 32 by omega) (show (32 : ℕ) = cfg0.N from N_0.symm)
  rw [addend_apply m c _ hn, Finset.sum_range]
  refine Finset.sum_congr rfl fun k _ => ?_
  have hk : k.val < 1024 := k.isLt
  have hlt : 1024 * s + k.val < 4096 := by omega
  refine Eq.trans ?_ (Cert.Linear.ext0_of_lt _ _ hlt).symm
  exact congrArg₂ (· * ·)
    (xBlk_apply m c ⟨4 * (t.val / 4) + s, hn⟩ p k r ⟨1024 * s + k.val, hlt⟩
      (by show r.val = 512 * ((4 * (t.val / 4) + s) / 16) + p.val; omega)
      (by show 1024 * s + k.val = 1024 * ((4 * (t.val / 4) + s) % 4) + k.val; omega))
    (wBlk_apply m c ⟨4 * (t.val / 4) + s, hn⟩ k q ⟨1024 * s + k.val, hlt⟩ o
      (by show 1024 * s + k.val = 1024 * ((4 * (t.val / 4) + s) % 4) + k.val; omega)
      (by show o.val = 1024 * ((4 * (t.val / 4) + s) / 4 % 4) + q.val; omega))

/-- What the last point t of a run stores at (p, q) of its tile is the layer at row 512 i + p, column 1024 j + q. -/
theorem tile_apply (c : Dev nD) (t : Fin cfg0.N) (h0 : ¬t.val % 4 = 0) (h1 : t.val % 4 = 3) (p : Fin 512) (q : Fin 1024)
    (r : Fin 1024) (o : Fin 4096) (hr : r.val = 512 * (t.val / 16) + p.val) (ho : o.val = 1024 * (t.val / 4 % 4) + q.val) :
    out0_C_3 c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2 (ix2 p q)
      = result m c (ix2 r o) := by
  refine (congrFun (Pieces.output_last (F := Ideal) c (grid0.coords t) (ms0_0 t) (hs0_0 t) (ms0_1 t) (hs0_1 t) (ms0_2 t) (hs0_2 t) (ms0_3 t) (hs0_3 t) scM0_0 (Memref.isWhole_whole _) (xBlk m c t) (wBlk m c t) (rBlk m c t) (outsAt0 m c (t.val - 1) (Nat.lt_of_le_of_lt (Nat.sub_le _ _) t.isLt)).2
    (fun h => h0 ((hcond0_0 t).mp h)) ((hcond0_1 t).mpr h1)) (ix2 p q)).trans ?_
  refine (Payload.finish_apply (k0_pay2 (xBlk m c t) (wBlk m c t) (outsAt0 m c (t.val - 1) (Nat.lt_of_le_of_lt (Nat.sub_le _ _) t.isLt)).2)
    (rBlk m c t) p q).trans ?_
  have hs : k0_pay2 (xBlk m c t) (wBlk m c t) (outsAt0 m c (t.val - 1) (Nat.lt_of_le_of_lt (Nat.sub_le _ _) t.isLt)).2
      = (outsAt0 m c t.val t.isLt).2 := by
    rw [outsAt0_C m c t h0 h1]
    dsimp only
    exact (Pieces.scratch_last (F := Ideal) c (grid0.coords t) (ms0_0 t) (hs0_0 t) (ms0_1 t) (hs0_1 t) (ms0_2 t) (hs0_2 t) (ms0_3 t) (hs0_3 t) scM0_0 (Memref.isWhole_whole _) (xBlk m c t) (wBlk m c t) (rBlk m c t) (outsAt0 m c (t.val - 1) (Nat.lt_of_le_of_lt (Nat.sub_le _ _) t.isLt)).2
      (fun h => h0 ((hcond0_0 t).mp h)) ((hcond0_1 t).mpr h1)).symm
  rw [hs, scratch_done m c t h1, rBlk_apply m c t q o ho]
  refine Eq.trans ?_ (Cert.Linear.linear_apply (xArr m c) (wArr m c) (fun j => rArr m c (ix2 0 (j 0))) r o).symm
  refine congrArg₂ (· + ·) ?_ rfl
  rw [← Cert.Linear.contraction_runs (fun kk : Fin 4096 => xArr m c (ix2 r kk) * wArr m c (ix2 kk o))]
  refine congrArg ((0 : EReal) + ·) (Finset.sum_congr rfl fun s hs => ?_)
  exact addend_run m c t h1 s (Finset.mem_range.mp hs) p q r o hr ho

/-- What a writing point writes back is its tile of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  have ht := lt32 t
  obtain ⟨-, -, -, -, -, -, e6, e7⟩ := idx_facts t
  rw [Value.flushed3_C m c t h0 h1]
  refine funext fun (j : S512x1024.Idx) => ?_
  obtain ⟨p, q, rfl⟩ : ∃ (p : Fin 512) (q : Fin 1024), j = ix2 p q := ⟨j 0, j 1, eq_ix2 j⟩
  have hemb : ((cfg0.win 3).blk t).view.emb (ix2 p q)
      = ix2 (⟨512 * (t.val / 16) + p.val, by have := p.isLt; omega⟩ : Fin 1024) (⟨1024 * (t.val / 4 % 4) + q.val, by have := q.isLt; omega⟩ : Fin 4096) := by
    funext a; apply Fin.ext
    match a with
    | ⟨0, _⟩ => show win0_3.index t (0 : Fin 2) * 512 + 1 * p.val = 512 * (t.val / 16) + p.val; omega
    | ⟨1, _⟩ => show win0_3.index t (1 : Fin 2) * 1024 + 1 * q.val = 1024 * (t.val / 4 % 4) + q.val; omega
  show _ = result m c (((cfg0.win 3).blk t).view.emb (ix2 p q))
  rw [hemb]
  exact tile_apply m c t h0 h1 p q _ _ rfl rfl

/-- Every index of the result lies in the tile of some writing point: the last point of the run for its tile. -/
theorem cover (i : S1024x4096.Idx) : ∃ t : Fin cfg0.N, (cfg0.win 3).flush t = true ∧ i ∈ ((cfg0.win 3).blk t).view.set := by
  have hi0 : (i 0).val < 1024 := idx2_lt0 i
  have hi1 : (i 1).val < 4096 := idx2_lt1 i
  obtain ⟨t, hv⟩ : ∃ t : Fin cfg0.N, t.val = 16 * ((i 0).val / 512) + 4 * ((i 1).val / 1024) + 3 :=
    ⟨⟨16 * ((i 0).val / 512) + 4 * ((i 1).val / 1024) + 3, lt_of_lt_of_eq (by omega) (show (32 : ℕ) = cfg0.N from N_0.symm)⟩, rfl⟩
  obtain ⟨-, -, -, -, -, -, e6, e7⟩ := idx_facts t
  refine ⟨t, (flush0_3 t).mpr (by omega), ?_⟩
  show i ∈ ((View.whole main_v13).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The result array after the run is the layer of the three arrays. -/
theorem final (c : Dev nD) : (dats m 0 c).arrAt 3 cfg0.N = result m c :=
  (dats m 0 c).arrAt_eq_of_cover 3 (result m c) (flushed_eq m c) cover

end Cert.KernelIdeal.Whole

end
-- ==== Proof.KernelHost.lean ====
/-
  The three arrays the region is handed, as functions of the program's arguments.

  Before the region runs, the host builds its operands. The left operand is the input narrowed to a shorter float
  format, which over the extended reals is the input itself. The right operand is the gathered row table — row
  `n * 4096 + o` holding the eight weights of input block `n` for output feature `o` — viewed as [512, 4096, 8], with
  its last two axes exchanged, flattened to [4096, 4096] and narrowed: its entry at (k, o) is the table's row
  `k / 8 * 4096 + o` at column `k % 8`. The bias is viewed as one row. Which rows the gather picked is never opened:
  the table enters only as a whole.
-/
import proofs.«163382_j16123307229809_1_alg».proof.Proof.Gen.KernelIdeal.Frame
import proofs.«163382_j16123307229809_1_alg».proof.Proof.Linear
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The gathered row table: the codebook's rows picked by the assignments, a negative assignment first moved up by the
    codebook's length. -/
abbrev table (c : Dev nD) : FVec Ideal S2097152x8 .f32 :=
  Host.gather gather_S2048x8_S2097152x1_S2097152x8_1_0_n_n_0_1_18 (m ((c : Thread nD τ).loc main_arg1))
    (broadcastInDim S2097152x1 ![0] bcast_S2097152_S2097152x1_0
      (select (cmpi .slt (m ((c : Thread nD τ).loc main_arg3)) (broadcastInDim S2097152 ![] bcast_S_S2097152 (constantI S_ 32 0#32)))
        (addi (m ((c : Thread nD τ).loc main_arg3)) (broadcastInDim S2097152 ![] bcast_S_S2097152 (constantI S_ 32 2048#32)))
        (m ((c : Thread nD τ).loc main_arg3))))

/-- The left operand is the input. -/
theorem left_eq (c : Dev nD) : (V m c main_v10 : Vec Ideal S1024x4096 .bf16) = m ((c : Thread nD τ).loc main_arg0) := by
  dsimp only [Gen.V, Gen.hostOps0]; after_results; rfl

/-- The right operand as the host's operations of the table. -/
theorem right_term (c : Dev nD) : (V m c main_v11 : Vec Ideal S4096x4096 .bf16)
    = truncf .bf16 (shapeCast S4096x4096 (transpose S512x8x4096 [0, 2, 1] (shapeCast S512x4096x8 (table m c) shapeCasts_S2097152x8_S512x4096x8)
        transposes_S512x4096x8_S512x8x4096_0_2_1) shapeCasts_S512x8x4096_S4096x4096) bitsLt_bf16_f32 := by
  dsimp only [Gen.V, Gen.hostOps0]; after_results; rfl

/-- The right operand is the matrix the table spells. -/
theorem right_eq (c : Dev nD) : (V m c main_v11 : Vec Ideal S4096x4096 .bf16) = Cert.Linear.weight (table m c) := by
  rw [right_term]
  funext j
  obtain ⟨k, o, rfl⟩ : ∃ (k o : Fin 4096), j = ix2 k o := ⟨j 0, j 1, eq_ix2 j⟩
  have hk : k.val < 4096 := k.isLt
  have ho : o.val < 4096 := o.isLt
  rw [Cert.Linear.weight_apply]
  rw [truncf_apply]
  rw [shapeCast_apply _ shapeCasts_S512x8x4096_S4096x4096 (ix2 k o)
    (ix3 (⟨k.val / 8, by omega⟩ : Fin 512) (⟨k.val % 8, by omega⟩ : Fin 8) o)
    (by rewrite [Shape.rowMajor_val_three, Shape.rowMajor_val_two]
        show (k.val / 8 * 8 + k.val % 8) * 4096 + o.val = k.val * 4096 + o.val; omega)]
  rw [transpose_apply [0, 2, 1] _ transposes_S512x4096x8_S512x8x4096_0_2_1
    (ix3 (⟨k.val / 8, by omega⟩ : Fin 512) (⟨k.val % 8, by omega⟩ : Fin 8) o)
    (ix3 (⟨k.val / 8, by omega⟩ : Fin 512) o (⟨k.val % 8, by omega⟩ : Fin 8))
    (fun b => match b with
      | ⟨0, _⟩ => rfl
      | ⟨1, _⟩ => rfl
      | ⟨2, _⟩ => rfl)]
  exact shapeCast_apply _ shapeCasts_S2097152x8_S512x4096x8
    (ix3 (⟨k.val / 8, by omega⟩ : Fin 512) o (⟨k.val % 8, by omega⟩ : Fin 8))
    (ix2 (⟨k.val / 8 * 4096 + o.val, by omega⟩ : Fin 2097152) (⟨k.val % 8, Nat.mod_lt _ (by decide)⟩ : Fin 8))
    (by rewrite [Shape.rowMajor_val_two, Shape.rowMajor_val_three]
        show (k.val / 8 * 4096 + o.val) * 8 + k.val % 8 = (k.val / 8 * 4096 + o.val) * 8 + k.val % 8; rfl)

/-- The bias row at column o is the bias at o. -/
theorem bias_apply (c : Dev nD) (o : Fin 4096) :
    (V m c main_v12 : Vec Ideal S1x4096 .f32) (ix2 0 o) = m ((c : Thread nD τ).loc main_arg2) (ix1 o) := by
  have e : (V m c main_v12 : Vec Ideal S1x4096 .f32) = shapeCast S1x4096 (m ((c : Thread nD τ).loc main_arg2)) shapeCasts_S4096_S1x4096 := by
    dsimp only [Gen.V, Gen.hostOps0]; after_results; rfl
  rw [e]
  exact shapeCast_apply _ shapeCasts_S4096_S1x4096 (ix2 0 o) (ix1 o)
    (by rewrite [Shape.rowMajor_val_one, Shape.rowMajor_val_two]
        show o.val = 0 * 4096 + o.val; omega)

end Cert.KernelIdeal.Host

end
-- ==== Proof.KernelRun.lean ====
/-
  The kernel's run, read back over the program's own arguments.

  The result array after the run is the layer of the three arrays the region is handed; those are the input, the matrix
  the gathered row table spells, and the bias as one row. So the run ends with the result at the layer of the input,
  that matrix and the bias, and leaves every argument as it was.
-/
import proofs.«163382_j16123307229809_1_alg».proof.Proof.KernelValue
import proofs.«163382_j16123307229809_1_alg».proof.Proof.KernelHost

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer of the region's three arrays is the layer of the input, the table's matrix and the bias. -/
theorem result_eq (c : Dev nD) : result m c
    = Cert.Linear.linear (m ((c : Thread nD τ).loc main_arg0)) (Cert.Linear.weight (Host.table m c)) (m ((c : Thread nD τ).loc main_arg2)) := by
  have eb : (fun j : (⟨1, ![4096]⟩ : Shape).Idx => rArr m c (ix2 0 (j 0))) = m ((c : Thread nD τ).loc main_arg2) :=
    funext fun j => (Host.bias_apply m c (j 0)).trans (congrArg _ (eq_ix1 j).symm)
  show Cert.Linear.linear (V m c main_v10) (V m c main_v11) _ = _
  rw [Host.left_eq m c, Host.right_eq m c, eb]

/-- Every weakly fair execution ends with the result at the layer and the arguments unchanged. -/
theorem run : θ_run defs (onTc (τ := τ) (main (F := Ideal))) ⟨m, fun _ => 0, ρ⟩ fun r => ∀ c : Dev nD,
      r.2.mem ((c : Thread nD τ).loc main_v13)
        = Cert.Linear.linear (m ((c : Thread nD τ).loc main_arg0)) (Cert.Linear.weight (Host.table m c)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩) (Value.run_blocks m ρ)

end Cert.KernelIdeal.Whole

end
-- ==== Proof.RefValue.lean ====
/-
  The reference's result is the layer of the input, the gathered table's matrix and the bias.

  The reference views the gathered row table as [512, 4096, 8], exchanges its first two axes, flattens to a
  4096 × 4096 matrix whose row o holds output feature o's weights in input order, transposes it, and contracts the
  input's columns with its rows. Read index by index, the transposed matrix at (k, o) is the table's row
  `k / 8 * 4096 + o` at column `k % 8`: the matrix the table spells. The product at (p, q) is the sum over k of the
  input at (p, k) times that entry, and the bias at q is added.
-/
import proofs.«163382_j16123307229809_1_alg».proof.Proof.Gen.ReferenceIdeal.Read
import proofs.«163382_j16123307229809_1_alg».proof.Proof.Linear
import Idealize.ShloMosaic.Lib.ValueIdx

noncomputable section

namespace Cert.ReferenceIdeal.Whole

open Cert.ReferenceIdeal Cert.ReferenceIdeal.Gen Cert.ReferenceIdeal.Read Idealize.ShloMosaic Idealize.ShloMosaic.ValueIdx

/-- Through the transposition, the flattening, the exchange of axes and the view as [512, 4096, 8], entry (k, o) of the
    reference's right operand is the table's row `k / 8 * 4096 + o` at column `k % 8`. -/
theorem right_index (p : Fin 1024) (q k : Fin 4096) :
    idx_main_v7 (idx_main_v8 (idx_main_v9 (idx_main_v10 (ridx_main_v11 (ix2 p q) k))))
      = ix2 (⟨k.val / 8 * 4096 + q.val, by have := k.isLt; have := q.isLt; omega⟩ : Fin 2097152) (⟨k.val % 8, Nat.mod_lt _ (by decide)⟩ : Fin 8) := by
  have hk : k.val < 4096 := k.isLt
  have hq : q.val < 4096 := q.isLt
  funext a
  apply Fin.ext
  match a with
  | ⟨0, _⟩ =>
    show ((((q.val * 4096 + k.val) / 8 % 512) * 4096 + (q.val * 4096 + k.val) / 4096) * 8 + (q.val * 4096 + k.val) % 8) / 8 = k.val / 8 * 4096 + q.val
    omega
  | ⟨1, _⟩ =>
    show ((((q.val * 4096 + k.val) / 8 % 512) * 4096 + (q.val * 4096 + k.val) / 4096) * 8 + (q.val * 4096 + k.val) % 8) % 8 = k.val % 8
    omega

/-- The reference's result, as the layer. -/
theorem result_eq (x0 : FVec Ideal S1024x4096 .f32) (x1 : FVec Ideal S2048x8 .f32) (x2 : FVec Ideal S4096 .f32)
    (x3 : (⟨S2097152, .i32⟩ : BufTy).Contents (Elt Ideal)) :
    val_main_v14 (F := Ideal) x0 x1 x2 x3 = Cert.Linear.linear x0 (Cert.Linear.weight (val_main_v6 (F := Ideal) x1 x3)) x2 := by
  funext i
  obtain ⟨p, q, rfl⟩ : ∃ (p : Fin 1024) (q : Fin 4096), i = ix2 p q := ⟨i 0, i 1, eq_ix2 i⟩
  rw [val_main_v14_apply, val_main_v11_apply, val_main_v13_apply, val_main_v12_apply, Cert.Linear.linear_apply]
  refine congrArg₂ (· + ·) (Finset.sum_congr rfl fun k _ => ?_) ?_
  · have el : lidx_main_v11 (ix2 p q) k = ix2 p k :=
      funext fun a => Fin.ext (by match a with | ⟨0, _⟩ => rfl | ⟨1, _⟩ => rfl)
    rw [el, val_main_v10_apply, val_main_v9_apply, val_main_v8_apply, val_main_v7_apply, right_index, Cert.Linear.weight_apply]
  · exact congrArg x2 (funext fun a => Fin.ext (by match a with | ⟨0, _⟩ => rfl))

end Cert.ReferenceIdeal.Whole

end
-- ==== Proof.lean ====
/-
  A quantized linear layer: the kernel's blockwise matrix product against the reference's single product.

  Both programs gather the same row table from the codebook by the same assignments. The kernel lays the table out
  directly as the transposed weight matrix, multiplies the input by it tile by tile — for each 512 × 1024 tile of the
  result, four steps over the contraction axis accumulate 512 × 1024 by 1024 × 1024 block products into a cleared
  accumulator — and adds the bias row as it writes the tile. The reference lays the table out as the weight matrix,
  transposes it, takes one product over all 4096 terms and adds the bias. The two matrices agree entry by entry: both
  put the table's row `k / 8 * 4096 + o`, column `k % 8`, at (k, o). Narrowing the operands to a shorter float format
  is the identity over the extended reals, and a sum of 4096 terms is the sum of its four runs of 1024 met in order
  from zero: regrouping in a commutative monoid, which asks nothing of the terms. So the finiteness precondition is
  never opened, and which rows the gather picks is never opened either: the table enters both sides as one term.

  The two kernels' frames are the generated ones; the reference's is its generated run with the result dropped. The
  idealization rewrote no operation, so the kernel's idealized text is its own text.
-/
import proofs.«163382_j16123307229809_1_alg».proof.Defs
import proofs.«163382_j16123307229809_1_alg».proof.Proof.Gen.Kernel
import proofs.«163382_j16123307229809_1_alg».proof.Proof.Gen.Kernel.Frame
import proofs.«163382_j16123307229809_1_alg».proof.Proof.Gen.KernelIdeal
import proofs.«163382_j16123307229809_1_alg».proof.Proof.Gen.KernelIdeal.Frame
import proofs.«163382_j16123307229809_1_alg».proof.Proof.Gen.KernelIdeal.Value
import proofs.«163382_j16123307229809_1_alg».proof.Proof.Gen.ReferenceIdeal
import proofs.«163382_j16123307229809_1_alg».proof.Proof.Gen.ReferenceIdeal.Run
import proofs.«163382_j16123307229809_1_alg».proof.Proof.Gen.ReferenceIdeal.Read
import proofs.«163382_j16123307229809_1_alg».proof.Proof.Gen.Pre_finite_inputs
import proofs.«163382_j16123307229809_1_alg».proof.Proof.KernelRun
import proofs.«163382_j16123307229809_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of the input, the gathered table's matrix
    and the bias: the kernel by its tiles' accumulated block products, the reference by its one product. -/
theorem algebraic : Cert.algebraic_KernelIdeal_ReferenceIdeal := by
  intro m ρ m' ρ' _ hagree
  refine ⟨fun c => Cert.Linear.linear (m ((c : Thread Cert.KernelIdeal.nD Cert.KernelIdeal.τ).loc Cert.KernelIdeal.main_arg0))
      (Cert.Linear.weight (Cert.KernelIdeal.Host.table m c))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, -⟩ := hagree c
  rw [Cert.ReferenceIdeal.Read.val_main_v14_eq, Cert.ReferenceIdeal.Whole.result_eq, e0, e1, e2, e3]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
